-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_arg5 : FVec F S4096x4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S4096x4096 .f32) (main_arg6 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S8192x4096 : Shape := ⟨2, ![8192, 4096]⟩
abbrev S1024x512 : Shape := ⟨2, ![1024, 512]⟩
abbrev S512x4096 : Shape := ⟨2, ![512, 4096]⟩
abbrev S512x16 : Shape := ⟨2, ![512, 16]⟩
abbrev S1024x4096 : Shape := ⟨2, ![1024, 4096]⟩
abbrev S1024x16 : Shape := ⟨2, ![1024, 16]⟩

abbrev nBuf : Space → Nat
  | .hbm => 21
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x16, .f32⟩
  | .hbm, ⟨13, _⟩ => ⟨S4096x16, .bf16⟩
  | .hbm, ⟨14, _⟩ => ⟨S16x4096, .f32⟩
  | .hbm, ⟨15, _⟩ => ⟨S16x4096, .bf16⟩
  | .hbm, ⟨16, _⟩ => ⟨S1x4096, .f32⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x4096, .bf16⟩
  | .local _ .vmem, ⟨3, _⟩ => ⟨S512x4096, .bf16⟩
  | .local _ .vmem, ⟨4, _⟩ => ⟨S512x16, .bf16⟩
  | .local _ .vmem, ⟨5, _⟩ => ⟨S512x16, .bf16⟩
  | .local _ .vmem, ⟨6, _⟩ => ⟨S16x4096, .bf16⟩
  | .local _ .vmem, ⟨7, _⟩ => ⟨S1x4096, .f32⟩
  | .local _ .vmem, ⟨8, _⟩ => ⟨S1024x4096, .f32⟩
  | .local _ .vmem, ⟨9, _⟩ => ⟨S1024x4096, .f32⟩
  | .local _ .vmem, ⟨10, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x4096_S4096x4096_1_0 : S4096x4096.Transposes [1, 0] S4096x4096
  bitsLt_bf16_f32 : FTy.bits .bf16 < FTy.bits .f32
  transposes_S16x4096_S4096x16_1_0 : S16x4096.Transposes [1, 0] S4096x16
  transposes_S4096x16_S16x4096_1_0 : S4096x16.Transposes [1, 0] S16x4096
  shapeCasts_S4096_S1x4096 : S4096.ShapeCasts S1x4096
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S1024x4096_S1024x4096 : S1024x4096.ShapeCasts S1024x4096
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  shapeCasts_S8192x4096_S4x2048x4096 : S8192x4096.ShapeCasts S4x2048x4096
  dot_S1024x512_S512x4096_S1024x4096_1_0_0_1_n_n_wf : DotDims.WF S1024x512 S512x4096 S1024x4096 [1] [0] [0] [1] [] []
  dot_S1024x512_S512x16_S1024x16_1_0_0_1_n_n_wf : DotDims.WF S1024x512 S512x16 S1024x16 [1] [0] [0] [1] [] []
  dot_S1024x16_S16x4096_S1024x4096_1_0_0_1_n_n_wf : DotDims.WF S1024x16 S16x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .bf16 = 32 ∨ (Rect.block (s := S4096x16) S512x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .bf16 = 32 ∨ (Rect.block (s := S16x4096) S16x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S8192x4096.size a
  hwx0_5 : ∀ i : grid0.Coords, EltTy.bits .f32 = 32 ∨ (Rect.block (s := S8192x4096) S1024x4096.size (cc0_transform_5 i) (hinb0_5 i)).WholeWords (EltTy.packing .f32)

variable [Facts₀]

def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x4096_S1024x4096_1_0_0_1_n_n : DotDims S1024x16 S16x4096 S1024x4096 where
  lhsContracting := [1]
  rhsContracting := [0]
  lhsNonContracting := [0]
  rhsNonContracting := [1]
  lhsBatch := []
  rhsBatch := []
  wf := dot_S1024x16_S16x4096_S1024x4096_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .i1⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4096x4096, .f32⟩
  | .hbm, ⟨18, _⟩ => ⟨S4096x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Algebra.lean ====
/-
  The arithmetic that joins the two sides, on the extended reals.

  The kernel accumulates a row-times-column product block by block along the contracted axis: after block `k`
  the accumulator holds the sum of the first `512 * (k + 1)` products.  A sum over the first `n + w` naturals
  splits into the first `n` and the next `w`; a sum over the first `n` naturals of a function that is a
  `Fin n`-indexed family extended by zero is that family's sum.  Addition of extended reals is commutative
  and associative everywhere, so regrouping sums needs no hypothesis; only distributing a product over a sum
  needs the factors to be real numbers.
-/
import Idealize.ShloMosaic.PureOps.Ideal

noncomputable section

namespace Cert.Rosa

open Finset

/-- A `Fin n`-indexed family of extended reals, extended by zero to all naturals. -/
def extZ {n : ℕ} (f : Fin n → EReal) (d : ℕ) : EReal := if h : d < n then f ⟨d, h⟩ else 0

theorem extZ_of_lt {n : ℕ} (f : Fin n → EReal) (d : ℕ) (h : d < n) : extZ f d = f ⟨d, h⟩ := dif_pos h

/-- The whole prefix sum of the extension is the family's sum. -/
theorem sum_range_extZ {n : ℕ} (f : Fin n → EReal) : ∑ d ∈ range n, extZ f d = ∑ d : Fin n, f d := by
  rw [Finset.sum_range]
  exact Finset.sum_congr rfl fun d _ => extZ_of_lt f d.val d.isLt

/-- One more block of width `w`: the prefix sum up to `n + w` is the prefix sum up to `n` plus the block's
    `Fin w`-indexed sum. -/
theorem sum_range_block (g : ℕ → EReal) (n w : ℕ) :
    ∑ d ∈ range (n + w), g d = ∑ d ∈ range n, g d + ∑ j : Fin w, g (n + j.val) := by
  rw [Finset.sum_range_add, Finset.sum_range (fun x => g (n + x))]

/-- A product of a real with a sum of two reals distributes, in the extended reals. -/
theorem real_mul_add (a b c : ℝ) : (a : EReal) * ((b : EReal) + (c : EReal)) = (a : EReal) * b + (a : EReal) * c := by
  rw [← EReal.coe_add, ← EReal.coe_mul, mul_add, EReal.coe_add, EReal.coe_mul, EReal.coe_mul]

/-- THE LAW.  With `x`, `w` and `e` real-valued: summing `x · (w + e)` and then adding `T + β` is
    `((Σ x·w + β) + T) + Σ x·e`.  The other two summands may be any extended reals. -/
theorem fold_law {n : ℕ} (x w e : Fin n → EReal)
    (hx : ∀ d, ∃ a : ℝ, x d = a) (hw : ∀ d, ∃ a : ℝ, w d = a) (he : ∀ d, ∃ a : ℝ, e d = a) (T β : EReal) :
    (∑ d, x d * (w d + e d)) + (T + β) = ((∑ d, x d * w d + β) + T) + ∑ d, x d * e d := by
  have hd : ∀ d, x d * (w d + e d) = x d * w d + x d * e d := fun d => by
    obtain ⟨a, ha⟩ := hx d; obtain ⟨b, hb⟩ := hw d; obtain ⟨c, hc⟩ := he d
    rw [ha, hb, hc, real_mul_add]
  rw [Finset.sum_congr rfl fun d _ => hd d, Finset.sum_add_distrib]
  abel

end Cert.Rosa

end
-- ==== Proof.Pieces.lean ====
/-
  What each control case of the body leaves in the output block and in the low-rank accumulator, as values.

  The body runs in three cases along the contracted grid axis.  At the first K-block it resets both buffers to zero
  and then accumulates; in the middle it accumulates onto what the point before left; at the last K-block it
  accumulates and then closes: the output block becomes the accumulated block plus the scaled low-rank product plus
  the bias.  Every store covers its whole buffer, so what a buffer holds at the end is its last store's value, and a
  load after a store reads that store's value.
-/
import proofs.«180927_j66700842106980_1_alg».proof.Proof.Gen.KernelIdeal.Frame
import Idealize.ShloMosaic.Lib.Pipeline.Value
import Idealize.ShloMosaic.Lib.Tactic

set_option maxRecDepth 16384

noncomputable section

namespace Cert.KernelIdeal.Rosa

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S1024x512 .bf16) (harg2 : arg2.IsWhole)
  (arg3 : Memref sig .tc .vmem S512x4096 .bf16) (harg3 : arg3.IsWhole)
  (arg4 : Memref sig .tc .vmem S512x16 .bf16) (harg4 : arg4.IsWhole)
  (arg5 : Memref sig .tc .vmem S16x4096 .bf16) (harg5 : arg5.IsWhole)
  (arg6 : Memref sig .tc .vmem S1x4096 .f32) (harg6 : arg6.IsWhole)
  (arg7 : Memref sig .tc .vmem S1024x4096 .f32) (harg7 : arg7.IsWhole)
  (arg8 : Memref sig .tc .vmem S1024x16 .f32) (harg8 : arg8.IsWhole)
  (x0 : Vec F S1024x512 .bf16) (x1 : Vec F S512x4096 .bf16) (x2 : Vec F S512x16 .bf16)
  (x3 : Vec F S16x4096 .bf16) (x4 : Vec F S1x4096 .f32)

/-! ## First K-block: reset, then one accumulation step from zero -/

theorem out_first (hc0 : cond0_0 i) (hc1 : ¬cond0_1 i) :
    out0_A_5 c i arg2 harg2 arg3 harg3 arg4 harg4 arg5 harg5 arg6 harg6 arg7 harg7 arg8 harg8 hc0 hc1 x0 x1 x2 x3 x4 = k0_pay4 x0 x1 (k0_pay1 (F := F)) := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x4096) hz, View.readCov_unit_zero (S := S1024x4096) _ hz]
  simp only [View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

theorem scr_first (hc0 : cond0_0 i) (hc1 : ¬cond0_1 i) :
    sout0_A_0 c i arg2 harg2 arg3 harg3 arg4 harg4 arg5 harg5 arg6 harg6 arg7 harg7 arg8 harg8 hc0 hc1 x0 x1 x2 x3 x4 = k0_pay5 x0 x2 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

/-! ## A middle K-block: one accumulation step onto what the point before left -/

theorem out_mid (hc0 : ¬cond0_0 i) (hc1 : ¬cond0_1 i) (xo5 : Vec F S1024x4096 .f32) (xs0 : Vec F S1024x16 .f32) :
    out0_B_5 c i arg2 harg2 arg3 harg3 arg4 harg4 arg5 harg5 arg6 harg6 arg7 harg7 arg8 harg8 hc0 hc1 x0 x1 x2 x3 x4 xo5 xs0 = k0_pay4 x0 x1 xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

theorem scr_mid (hc0 : ¬cond0_0 i) (hc1 : ¬cond0_1 i) (xo5 : Vec F S1024x4096 .f32) (xs0 : Vec F S1024x16 .f32) :
    sout0_B_0 c i arg2 harg2 arg3 harg3 arg4 harg4 arg5 harg5 arg6 harg6 arg7 harg7 arg8 harg8 hc0 hc1 x0 x1 x2 x3 x4 xo5 xs0 = k0_pay5 x0 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

/-! ## Last K-block: one accumulation step, then the closing step over both accumulated values -/

theorem scr_last (hc0 : ¬cond0_0 i) (hc1 : cond0_1 i) (xo5 : Vec F S1024x4096 .f32) (xs0 : Vec F S1024x16 .f32) :
    sout0_C_0 c i arg2 harg2 arg3 harg3 arg4 harg4 arg5 harg5 arg6 harg6 arg7 harg7 arg8 harg8 hc0 hc1 x0 x1 x2 x3 x4 xo5 xs0 = k0_pay5 x0 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

theorem out_last (hc0 : ¬cond0_0 i) (hc1 : cond0_1 i) (xo5 : Vec F S1024x4096 .f32) (xs0 : Vec F S1024x16 .f32) :
    out0_C_5 c i arg2 harg2 arg3 harg3 arg4 harg4 arg5 harg5 arg6 harg6 arg7 harg7 arg8 harg8 hc0 hc1 x0 x1 x2 x3 x4 xo5 xs0 = k0_pay6 (k0_pay5 x0 x2 xs0) x3 (k0_pay4 x0 x1 xo5) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_cons_unit_zero (S := S1024x4096) hz]
  simp only [View.readCov_unit_zero (S := S1024x4096) _ hz, View.readCov_unit_zero (S := S1024x16) _ hz, View.readAt_eq_ld, harg2.read_unread, harg3.read_unread, harg4.read_unread, harg5.read_unread, harg6.read_unread, harg7.read_unread, harg8.read_unread, View.ld_unit_zero (S := S1024x512) hz, View.ld_unit_zero (S := S512x4096) hz, View.ld_unit_zero (S := S512x16) hz, View.ld_unit_zero (S := S16x4096) hz, View.ld_unit_zero (S := S1x4096) hz, View.ld_unit_zero (S := S1024x4096) hz, View.ld_unit_zero (S := S1024x16) hz]

end Cert.KernelIdeal.Rosa

end
-- ==== Proof.Payload.lean ====
/-
  The body's stored values read at an index, at the ideal instance.

  A block product into a zero accumulator is the sum over the contracted coordinate of the products of the
  operands' entries; a shape cast to the same shape is the identity; a change of float format is the identity; the
  bias row `[1, 4096]` broadcast over `1024` rows reads its column.
-/
import proofs.«180927_j66700842106980_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rosa

open Cert.KernelIdeal Cert.KernelIdeal.Gen Idealize.ShloMosaic Idealize.ShloMosaic.ValueIdx

/-- The reset value of the output block is zero everywhere. -/
theorem zeroOut_apply (p : Fin 1024) (q : Fin 4096) : (k0_pay1 (F := Ideal)) (ix2 p q) = 0 := by
  unfold k0_pay1
  exact Ideal.ofBits_zero_f32

/-- The reset value of the low-rank accumulator is zero everywhere. -/
theorem zeroScr_apply (p : Fin 1024) (r : Fin 16) : (k0_pay2 (F := Ideal)) (ix2 p r) = 0 := by
  unfold k0_pay2
  rw [shapeCast_self]
  exact Ideal.ofBits_zero_f32

/-! ### The main block product `x · W`: which coordinate each operand reads -/

/-- The left operand's row coordinate is the output's row. -/
theorem xW_lhs_0 (i : S1024x4096.Idx) (k : dot_S1024x512_S512x4096_S1024x4096_1_0_0_1_n_n.contr.Idx) :
    (dot_S1024x512_S512x4096_S1024x4096_1_0_0_1_n_n.lhsIdx i k 0).val = (i 0).val := by
  unfold DotDims.lhsIdx
  rw [dif_neg (show ¬(0 : Fin S1024x512.rank) ∈ dot_S1024x512_S512x4096_S1024x4096_1_0_0_1_n_n.lhsBatch by decide), dif_pos (show (0 : Fin S1024x512.rank) ∈ dot_S1024x512_S512x4096_S1024x4096_1_0_0_1_n_n.lhsNonContracting by decide)]
  rfl
/-- The left operand's column coordinate is the contracted coordinate. -/
theorem xW_lhs_1 (i : S1024x4096.Idx) (k : dot_S1024x512_S512x4096_S1024x4096_1_0_0_1_n_n.contr.Idx) :
    (dot_S1024x512_S512x4096_S1024x4096_1_0_0_1_n_n.lhsIdx i k 1).val = (k ⟨0, by decide⟩).val :=
  dot_S1024x512_S512x4096_S1024x4096_1_0_0_1_n_n.lhsIdx_val_of_single rfl i k
/-- The right operand's row coordinate is the contracted coordinate. -/
theorem xW_rhs_0 (i : S1024x4096.Idx) (k : dot_S1024x512_S512x4096_S1024x4096_1_0_0_1_n_n.contr.Idx) :
    (dot_S1024x512_S512x4096_S1024x4096_1_0_0_1_n_n.rhsIdx i k 0).val = (k ⟨0, by decide⟩).val :=
  dot_S1024x512_S512x4096_S1024x4096_1_0_0_1_n_n.rhsIdx_val_of_single rfl i k
/-- The right operand's column coordinate is the output's column. -/
theorem xW_rhs_1 (i : S1024x4096.Idx) (k : dot_S1024x512_S512x4096_S1024x4096_1_0_0_1_n_n.contr.Idx) :
    (dot_S1024x512_S512x4096_S1024x4096_1_0_0_1_n_n.rhsIdx i k 1).val = (i 1).val := by
  unfold DotDims.rhsIdx
  rw [dif_neg (show ¬(1 : Fin S512x4096.rank) ∈ dot_S1024x512_S512x4096_S1024x4096_1_0_0_1_n_n.rhsBatch by decide), dif_pos (show (1 : Fin S512x4096.rank) ∈ dot_S1024x512_S512x4096_S1024x4096_1_0_0_1_n_n.rhsNonContracting by decide)]
  rfl

/-- One step of the main accumulation: the running block plus this K-block's row-times-column sum. -/
theorem accStep_apply (v3 : Vec Ideal S1024x512 .bf16) (v5 : Vec Ideal S512x4096 .bf16) (v7 : Vec Ideal S1024x4096 .f32)
    (p : Fin 1024) (q : Fin 4096) :
    k0_pay4 v3 v5 v7 (ix2 p q) = v7 (ix2 p q) + ∑ j : Fin 512, v3 (ix2 p j) * v5 (ix2 j q) := by
  unfold k0_pay4 k0_pay3
  refine (addf_apply _ _ _).trans ?_
  rw [shapeCast_self v7, shapeCast_self v3, shapeCast_self v5]
  refine congrArg (v7 (ix2 p q) + ·) ?_
  refine (Ideal.matmul_constant_zero_apply (φ₁ := .bf16) (φ₂ := .bf16) dot_S1024x512_S512x4096_S1024x4096_1_0_0_1_n_n none v3 v5 (ix2 p q)).trans ?_
  rw [← Equiv.sum_comp (contrEquiv1 dot_S1024x512_S512x4096_S1024x4096_1_0_0_1_n_n 512 rfl rfl).symm]
  refine Finset.sum_congr rfl fun j _ => ?_
  have hk := contrEquiv1_symm_val dot_S1024x512_S512x4096_S1024x4096_1_0_0_1_n_n 512 rfl rfl j
  have el : dot_S1024x512_S512x4096_S1024x4096_1_0_0_1_n_n.lhsIdx (ix2 p q) ((contrEquiv1 dot_S1024x512_S512x4096_S1024x4096_1_0_0_1_n_n 512 rfl rfl).symm j) = ix2 p j := funext fun a => Fin.ext (by
    match a with
    | ⟨0, _⟩ => exact xW_lhs_0 _ _
    | ⟨1, _⟩ => exact (xW_lhs_1 _ _).trans hk)
  have er : dot_S1024x512_S512x4096_S1024x4096_1_0_0_1_n_n.rhsIdx (ix2 p q) ((contrEquiv1 dot_S1024x512_S512x4096_S1024x4096_1_0_0_1_n_n 512 rfl rfl).symm j) = ix2 j q := funext fun a => Fin.ext (by
    match a with
    | ⟨0, _⟩ => exact (xW_rhs_0 _ _).trans hk
    | ⟨1, _⟩ => exact xW_rhs_1 _ _)
  rw [el, er]

/-! ### The down-projection block product `x · A`: which coordinate each operand reads -/

/-- The left operand's row coordinate is the output's row. -/
theorem xA_lhs_0 (i : S1024x16.Idx) (k : dot_S1024x512_S512x16_S1024x16_1_0_0_1_n_n.contr.Idx) :
    (dot_S1024x512_S512x16_S1024x16_1_0_0_1_n_n.lhsIdx i k 0).val = (i 0).val := by
  unfold DotDims.lhsIdx
  rw [dif_neg (show ¬(0 : Fin S1024x512.rank) ∈ dot_S1024x512_S512x16_S1024x16_1_0_0_1_n_n.lhsBatch by decide), dif_pos (show (0 : Fin S1024x512.rank) ∈ dot_S1024x512_S512x16_S1024x16_1_0_0_1_n_n.lhsNonContracting by decide)]
  rfl
/-- The left operand's column coordinate is the contracted coordinate. -/
theorem xA_lhs_1 (i : S1024x16.Idx) (k : dot_S1024x512_S512x16_S1024x16_1_0_0_1_n_n.contr.Idx) :
    (dot_S1024x512_S512x16_S1024x16_1_0_0_1_n_n.lhsIdx i k 1).val = (k ⟨0, by decide⟩).val :=
  dot_S1024x512_S512x16_S1024x16_1_0_0_1_n_n.lhsIdx_val_of_single rfl i k
/-- The right operand's row coordinate is the contracted coordinate. -/
theorem xA_rhs_0 (i : S1024x16.Idx) (k : dot_S1024x512_S512x16_S1024x16_1_0_0_1_n_n.contr.Idx) :
    (dot_S1024x512_S512x16_S1024x16_1_0_0_1_n_n.rhsIdx i k 0).val = (k ⟨0, by decide⟩).val :=
  dot_S1024x512_S512x16_S1024x16_1_0_0_1_n_n.rhsIdx_val_of_single rfl i k
/-- The right operand's column coordinate is the output's column. -/
theorem xA_rhs_1 (i : S1024x16.Idx) (k : dot_S1024x512_S512x16_S1024x16_1_0_0_1_n_n.contr.Idx) :
    (dot_S1024x512_S512x16_S1024x16_1_0_0_1_n_n.rhsIdx i k 1).val = (i 1).val := by
  unfold DotDims.rhsIdx
  rw [dif_neg (show ¬(1 : Fin S512x16.rank) ∈ dot_S1024x512_S512x16_S1024x16_1_0_0_1_n_n.rhsBatch by decide), dif_pos (show (1 : Fin S512x16.rank) ∈ dot_S1024x512_S512x16_S1024x16_1_0_0_1_n_n.rhsNonContracting by decide)]
  rfl

/-- One step of the low-rank accumulation. -/
theorem scrStep_apply (v3 : Vec Ideal S1024x512 .bf16) (v12 : Vec Ideal S512x16 .bf16) (v14 : Vec Ideal S1024x16 .f32)
    (p : Fin 1024) (r : Fin 16) :
    k0_pay5 v3 v12 v14 (ix2 p r) = v14 (ix2 p r) + ∑ j : Fin 512, v3 (ix2 p j) * v12 (ix2 j r) := by
  unfold k0_pay5 k0_pay3
  rw [shapeCast_self (addf _ _), shapeCast_self v3, shapeCast_self v12]
  refine (addf_apply _ _ _).trans ?_
  refine congrArg (v14 (ix2 p r) + ·) ?_
  refine (Ideal.matmul_constant_zero_apply (φ₁ := .bf16) (φ₂ := .bf16) dot_S1024x512_S512x16_S1024x16_1_0_0_1_n_n none v3 v12 (ix2 p r)).trans ?_
  rw [← Equiv.sum_comp (contrEquiv1 dot_S1024x512_S512x16_S1024x16_1_0_0_1_n_n 512 rfl rfl).symm]
  refine Finset.sum_congr rfl fun j _ => ?_
  have hk := contrEquiv1_symm_val dot_S1024x512_S512x16_S1024x16_1_0_0_1_n_n 512 rfl rfl j
  have el : dot_S1024x512_S512x16_S1024x16_1_0_0_1_n_n.lhsIdx (ix2 p r) ((contrEquiv1 dot_S1024x512_S512x16_S1024x16_1_0_0_1_n_n 512 rfl rfl).symm j) = ix2 p j := funext fun a => Fin.ext (by
    match a with
    | ⟨0, _⟩ => exact xA_lhs_0 _ _
    | ⟨1, _⟩ => exact (xA_lhs_1 _ _).trans hk)
  have er : dot_S1024x512_S512x16_S1024x16_1_0_0_1_n_n.rhsIdx (ix2 p r) ((contrEquiv1 dot_S1024x512_S512x16_S1024x16_1_0_0_1_n_n 512 rfl rfl).symm j) = ix2 j r := funext fun a => Fin.ext (by
    match a with
    | ⟨0, _⟩ => exact (xA_rhs_0 _ _).trans hk
    | ⟨1, _⟩ => exact xA_rhs_1 _ _)
  rw [el, er]

/-! ### The up-projection product `t · B`: which coordinate each operand reads -/

/-- The left operand's row coordinate is the output's row. -/
theorem tB_lhs_0 (i : S1024x4096.Idx) (k : dot_S1024x16_S16x4096_S1024x4096_1_0_0_1_n_n.contr.Idx) :
    (dot_S1024x16_S16x4096_S1024x4096_1_0_0_1_n_n.lhsIdx i k 0).val = (i 0).val := by
  unfold DotDims.lhsIdx
  rw [dif_neg (show ¬(0 : Fin S1024x16.rank) ∈ dot_S1024x16_S16x4096_S1024x4096_1_0_0_1_n_n.lhsBatch by decide), dif_pos (show (0 : Fin S1024x16.rank) ∈ dot_S1024x16_S16x4096_S1024x4096_1_0_0_1_n_n.lhsNonContracting by decide)]
  rfl
/-- The left operand's column coordinate is the contracted coordinate. -/
theorem tB_lhs_1 (i : S1024x4096.Idx) (k : dot_S1024x16_S16x4096_S1024x4096_1_0_0_1_n_n.contr.Idx) :
    (dot_S1024x16_S16x4096_S1024x4096_1_0_0_1_n_n.lhsIdx i k 1).val = (k ⟨0, by decide⟩).val :=
  dot_S1024x16_S16x4096_S1024x4096_1_0_0_1_n_n.lhsIdx_val_of_single rfl i k
/-- The right operand's row coordinate is the contracted coordinate. -/
theorem tB_rhs_0 (i : S1024x4096.Idx) (k : dot_S1024x16_S16x4096_S1024x4096_1_0_0_1_n_n.contr.Idx) :
    (dot_S1024x16_S16x4096_S1024x4096_1_0_0_1_n_n.rhsIdx i k 0).val = (k ⟨0, by decide⟩).val :=
  dot_S1024x16_S16x4096_S1024x4096_1_0_0_1_n_n.rhsIdx_val_of_single rfl i k
/-- The right operand's column coordinate is the output's column. -/
theorem tB_rhs_1 (i : S1024x4096.Idx) (k : dot_S1024x16_S16x4096_S1024x4096_1_0_0_1_n_n.contr.Idx) :
    (dot_S1024x16_S16x4096_S1024x4096_1_0_0_1_n_n.rhsIdx i k 1).val = (i 1).val := by
  unfold DotDims.rhsIdx
  rw [dif_neg (show ¬(1 : Fin S16x4096.rank) ∈ dot_S1024x16_S16x4096_S1024x4096_1_0_0_1_n_n.rhsBatch by decide), dif_pos (show (1 : Fin S16x4096.rank) ∈ dot_S1024x16_S16x4096_S1024x4096_1_0_0_1_n_n.rhsNonContracting by decide)]
  rfl

/-- The closing step: the running block plus (the low-rank product scaled by two, plus the bias row). -/
theorem finish_apply (v23 : Vec Ideal S1024x16 .f32) (v25 : Vec Ideal S16x4096 .bf16) (v28 : Vec Ideal S1024x4096 .f32)
    (v32 : Vec Ideal S1x4096 .f32) (p : Fin 1024) (q : Fin 4096) :
    k0_pay6 v23 v25 v28 v32 (ix2 p q)
      = v28 (ix2 p q) + ((∑ r : Fin 16, v23 (ix2 p r) * v25 (ix2 r q)) * Ideal.ofBits .f32 0x40000000#32
          + v32 (ix2 (0 : Fin 1) q)) := by
  unfold k0_pay6
  rw [shapeCast_self v28, shapeCast_self v25, shapeCast_self v32]
  refine (addf_apply _ _ _).trans ?_
  refine congrArg (v28 (ix2 p q) + ·) ?_
  refine (addf_apply _ _ _).trans ?_
  refine congrArg₂ (· + ·) ?_ (broadcastTo_1b_ab_apply v32 _ p q)
  refine (mulf_apply _ _ _).trans ?_
  refine congrArg (· * Ideal.ofBits .f32 0x40000000#32) ?_
  refine (Ideal.matmul_constant_zero_apply (φ₁ := .bf16) (φ₂ := .bf16) dot_S1024x16_S16x4096_S1024x4096_1_0_0_1_n_n none
    (truncf .bf16 v23 bitsLt_bf16_f32) v25 (ix2 p q)).trans ?_
  rw [← Equiv.sum_comp (contrEquiv1 dot_S1024x16_S16x4096_S1024x4096_1_0_0_1_n_n 16 rfl rfl).symm]
  refine Finset.sum_congr rfl fun r _ => ?_
  have hk := contrEquiv1_symm_val dot_S1024x16_S16x4096_S1024x4096_1_0_0_1_n_n 16 rfl rfl r
  have el : dot_S1024x16_S16x4096_S1024x4096_1_0_0_1_n_n.lhsIdx (ix2 p q) ((contrEquiv1 dot_S1024x16_S16x4096_S1024x4096_1_0_0_1_n_n 16 rfl rfl).symm r) = ix2 p r := funext fun a => Fin.ext (by
    match a with
    | ⟨0, _⟩ => exact tB_lhs_0 _ _
    | ⟨1, _⟩ => exact (tB_lhs_1 _ _).trans hk)
  have er : dot_S1024x16_S16x4096_S1024x4096_1_0_0_1_n_n.rhsIdx (ix2 p q) ((contrEquiv1 dot_S1024x16_S16x4096_S1024x4096_1_0_0_1_n_n 16 rfl rfl).symm r) = ix2 r q := funext fun a => Fin.ext (by
    match a with
    | ⟨0, _⟩ => exact (tB_rhs_0 _ _).trans hk
    | ⟨1, _⟩ => exact tB_rhs_1 _ _)
  exact congrArg₂ (· * ·) ((congrArg _ el).trans (truncf_apply v23 bitsLt_bf16_f32 (ix2 p r))) (congrArg v25 er)

end Cert.KernelIdeal.Rosa

end
-- ==== Proof.HostPre.lean ====
/-
  The arrays the region stages, as the host lines before it make them from the argument arrays.

  The activations are reshaped `[4, 2048, 4096] → [8192, 4096]` (row `2048·b + s`); the effective weight is
  `W + delta · mask` transposed; the two low-rank factors are transposed; the bias becomes a row.  The casts to
  bf16 are the identity at the ideal instance.
-/
import proofs.«180927_j66700842106980_1_alg».proof.Proof.Gen.KernelIdeal.Frame.Runs
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.KernelIdeal.Rosa

open Cert.KernelIdeal Cert.KernelIdeal.Gen
open Idealize.ShloMosaic Idealize.ShloMosaic.TcCoe Idealize.ShloMosaic.Tactic Idealize.SL.Sem Idealize.ShloMosaic.ValueIdx

section anyInstance

variable {F : FTy → Type} [FloatOps F]
variable (m : (ℓ : Loc nD τ sig) → Buf (Elt F) ℓ)

/-- The staged arrays, each named at its literal type. -/
abbrev actArr (c : Dev nD) : Vec F S8192x4096 .bf16 := V m c main_v11
abbrev wgtArr (c : Dev nD) : Vec F S4096x4096 .bf16 := V m c main_v4
abbrev loraAArr (c : Dev nD) : Vec F S4096x16 .bf16 := V m c main_v6
abbrev loraBArr (c : Dev nD) : Vec F S16x4096 .bf16 := V m c main_v8
abbrev biasArr (c : Dev nD) : Vec F S1x4096 .f32 := V m c main_v9

/-- The argument arrays, each named at its literal type. -/
abbrev argX (c : Dev nD) : FVec F S4x2048x4096 .f32 := m ((c : Thread nD τ).loc main_arg0)
abbrev argW (c : Dev nD) : FVec F S4096x4096 .f32 := m ((c : Thread nD τ).loc main_arg1)
abbrev argBias (c : Dev nD) : FVec F S4096 .f32 := m ((c : Thread nD τ).loc main_arg2)
abbrev argA (c : Dev nD) : FVec F S16x4096 .f32 := m ((c : Thread nD τ).loc main_arg3)
abbrev argB (c : Dev nD) : FVec F S4096x16 .f32 := m ((c : Thread nD τ).loc main_arg4)
abbrev argDelta (c : Dev nD) : FVec F S4096x4096 .f32 := m ((c : Thread nD τ).loc main_arg5)
abbrev argMask (c : Dev nD) : IVec S4096x4096 1 := m ((c : Thread nD τ).loc main_arg6)

theorem actArr_eq (c : Dev nD) :
    actArr m c = truncf .bf16 (shapeCast S8192x4096 (argX m c) shapeCasts_S4x2048x4096_S8192x4096) bitsLt_bf16_f32 := by
  show StableHlo.after hostOps0 (fun b => m (c, b)) (Proc.devRef .tc main_v11) = _
  after_results; rfl

theorem wgtArr_eq (c : Dev nD) :
    wgtArr m c = truncf .bf16 (transpose S4096x4096 [1, 0]
        (addf (argW m c) (mulf (argDelta m c) (uitofp .f32 (argMask m c))))
        transposes_S4096x4096_S4096x4096_1_0) bitsLt_bf16_f32 := by
  show StableHlo.after hostOps0 (fun b => m (c, b)) (Proc.devRef .tc main_v4) = _
  after_results

theorem loraAArr_eq (c : Dev nD) :
    loraAArr m c = truncf .bf16 (transpose S4096x16 [1, 0] (argA m c) transposes_S16x4096_S4096x16_1_0) bitsLt_bf16_f32 := by
  show StableHlo.after hostOps0 (fun b => m (c, b)) (Proc.devRef .tc main_v6) = _
  after_results

theorem loraBArr_eq (c : Dev nD) :
    loraBArr m c = truncf .bf16 (transpose S16x4096 [1, 0] (argB m c) transposes_S4096x16_S16x4096_1_0) bitsLt_bf16_f32 := by
  show StableHlo.after hostOps0 (fun b => m (c, b)) (Proc.devRef .tc main_v8) = _
  after_results

theorem biasArr_eq (c : Dev nD) :
    biasArr m c = shapeCast S1x4096 (argBias m c) shapeCasts_S4096_S1x4096 := by
  show StableHlo.after hostOps0 (fun b => m (c, b)) (Proc.devRef .tc main_v9) = _
  after_results; rfl

end anyInstance

/-! ## Read at an index, at the ideal instance -/

variable (m : (ℓ : Loc nD τ sig) → Buf (Elt Ideal) ℓ)

/-- Row `2048·b + s` of the reshaped activations is row `(b, s)` of the activations. -/
theorem actArr_apply (c : Dev nD) (b : Fin 4) (s : Fin 2048) (d : Fin 4096) (row : Fin 8192) (hrow : row.val = 2048 * b.val + s.val) :
    actArr m c (ix2 row d) = argX m c (ix3 b s d) := by
  rw [actArr_eq]
  show shapeCast S8192x4096 (argX m c) shapeCasts_S4x2048x4096_S8192x4096 (ix2 row d) = _
  refine shapeCast_apply _ _ (ix2 row d) (ix3 b s d) ?_
  rw [Shape.rowMajor_val_three, Shape.rowMajor_val_two]
  show (b.val * 2048 + s.val) * 4096 + d.val = row.val * 4096 + d.val
  rw [hrow]; ring

/-- The effective weight, transposed: entry `(d, o)` is `W o d + delta o d · mask o d`. -/
theorem wgtArr_apply (c : Dev nD) (d o : Fin 4096) :
    wgtArr m c (ix2 d o) = argW m c (ix2 o d)
      + argDelta m c (ix2 o d) * FloatOps.uitofp (F := Ideal) .f32 (argMask m c (ix2 o d)) := by
  rw [wgtArr_eq]
  show transpose S4096x4096 [1, 0] (addf (argW m c) (mulf (argDelta m c) (uitofp .f32 (argMask m c))))
    transposes_S4096x4096_S4096x4096_1_0 (ix2 d o) = _
  rw [transpose_ix2_apply]
  rfl

theorem loraAArr_apply (c : Dev nD) (d : Fin 4096) (r : Fin 16) :
    loraAArr m c (ix2 d r) = argA m c (ix2 r d) := by
  rw [loraAArr_eq]
  show transpose S4096x16 [1, 0] (argA m c) transposes_S16x4096_S4096x16_1_0 (ix2 d r) = _
  rw [transpose_ix2_apply]

theorem loraBArr_apply (c : Dev nD) (r : Fin 16) (o : Fin 4096) :
    loraBArr m c (ix2 r o) = argB m c (ix2 o r) := by
  rw [loraBArr_eq]
  show transpose S16x4096 [1, 0] (argB m c) transposes_S4096x16_S16x4096_1_0 (ix2 r o) = _
  rw [transpose_ix2_apply]

theorem biasArr_apply (c : Dev nD) (o : Fin 4096) :
    biasArr m c (ix2 (0 : Fin 1) o) = argBias m c (ix1 o) := by
  rw [biasArr_eq]
  exact shapeCast_a_1a_apply _ _ _ _

end Cert.KernelIdeal.Rosa

end
-- ==== Proof.Blocks.lean ====
/-
  The input blocks at a grid point, read off the staged arrays.

  Point `t` of the `8 × 8` grid is row block `t / 8` and K-block `t % 8`.  The activation block is rows
  `1024·(t/8) + p`, columns `512·(t%8) + j`; the weight and the first low-rank factor take rows
  `512·(t%8) + j` and all their columns; the second low-rank factor and the bias row are taken whole.
-/
import proofs.«180927_j66700842106980_1_alg».proof.Proof.HostPre

set_option maxRecDepth 16384

noncomputable section

namespace Cert.KernelIdeal.Rosa

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The input blocks at a point, each named at its literal type. -/
abbrev actBlk (c : Dev nD) (t : Fin cfg0.N) : Vec F S1024x512 .bf16 := iblk m c 0 t
abbrev wgtBlk (c : Dev nD) (t : Fin cfg0.N) : Vec F S512x4096 .bf16 := iblk m c 1 t
abbrev loraABlk (c : Dev nD) (t : Fin cfg0.N) : Vec F S512x16 .bf16 := iblk m c 2 t
abbrev loraBBlk (c : Dev nD) (t : Fin cfg0.N) : Vec F S16x4096 .bf16 := iblk m c 3 t
abbrev biasBlk (c : Dev nD) (t : Fin cfg0.N) : Vec F S1x4096 .f32 := iblk m c 4 t

/-! ## The block index maps over the grid -/

theorem idx_act : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx_wgt : ∀ t : Fin cfg0.N, win0_1.index t 0 = t.val % 8 ∧ win0_1.index t 1 = 0 :=
  (by decide +kernel : ∀ t : Fin grid0.N, win0_1.index t 0 = t.val % 8 ∧ win0_1.index t 1 = 0)
theorem idx_loraA : ∀ t : Fin cfg0.N, win0_2.index t 0 = t.val % 8 ∧ win0_2.index t 1 = 0 :=
  (by decide +kernel : ∀ t : Fin grid0.N, win0_2.index t 0 = t.val % 8 ∧ win0_2.index t 1 = 0)
theorem idx_loraB : ∀ t : Fin cfg0.N, win0_3.index t 0 = 0 ∧ win0_3.index t 1 = 0 :=
  (by decide +kernel : ∀ t : Fin grid0.N, win0_3.index t 0 = 0 ∧ win0_3.index t 1 = 0)
theorem idx_bias : ∀ t : Fin cfg0.N, win0_4.index t 0 = 0 ∧ win0_4.index t 1 = 0 :=
  (by decide +kernel : ∀ t : Fin grid0.N, win0_4.index t 0 = 0 ∧ win0_4.index t 1 = 0)
theorem idx_out : ∀ t : Fin cfg0.N, win0_5.index t 0 = t.val / 8 ∧ win0_5.index t 1 = 0 :=
  (by decide +kernel : ∀ t : Fin grid0.N, win0_5.index t 0 = t.val / 8 ∧ win0_5.index t 1 = 0)

/-! ## Each block read at an index -/

theorem actBlk_apply (c : Dev nD) (t : Fin cfg0.N) (p : Fin 1024) (j : Fin 512) (row : Fin 8192) (col : Fin 4096)
    (hrow : row.val = 1024 * (t.val / 8) + p.val) (hcol : col.val = 512 * (t.val % 8) + j.val) :
    actBlk m c t (ix2 p j) = actArr m c (ix2 row col) := by
  unfold actBlk iblk
  rw [View.read_apply]
  show actArr m c _ = actArr m c _
  refine congrArg (actArr m c) (funext fun a => Fin.ext ?_)
  match a with
  | ⟨0, _⟩ => show win0_0.index t 0 * 1024 + 1 * p.val = row.val; rw [(idx_act t).1, hrow]; omega
  | ⟨1, _⟩ => show win0_0.index t 1 * 512 + 1 * j.val = col.val; rw [(idx_act t).2, hcol]; omega

theorem wgtBlk_apply (c : Dev nD) (t : Fin cfg0.N) (j : Fin 512) (q : Fin 4096) (col : Fin 4096)
    (hcol : col.val = 512 * (t.val % 8) + j.val) :
    wgtBlk m c t (ix2 j q) = wgtArr m c (ix2 col q) := by
  unfold wgtBlk iblk
  rw [View.read_apply]
  show wgtArr m c _ = wgtArr m c _
  refine congrArg (wgtArr m c) (funext fun a => Fin.ext ?_)
  match a with
  | ⟨0, _⟩ => show win0_1.index t 0 * 512 + 1 * j.val = col.val; rw [(idx_wgt t).1, hcol]; omega
  | ⟨1, _⟩ => show win0_1.index t 1 * 4096 + 1 * q.val = q.val; rw [(idx_wgt t).2]; omega

theorem loraABlk_apply (c : Dev nD) (t : Fin cfg0.N) (j : Fin 512) (r : Fin 16) (col : Fin 4096)
    (hcol : col.val = 512 * (t.val % 8) + j.val) :
    loraABlk m c t (ix2 j r) = loraAArr m c (ix2 col r) := by
  unfold loraABlk iblk
  rw [View.read_apply]
  show loraAArr m c _ = loraAArr m c _
  refine congrArg (loraAArr m c) (funext fun a => Fin.ext ?_)
  match a with
  | ⟨0, _⟩ => show win0_2.index t 0 * 512 + 1 * j.val = col.val; rw [(idx_loraA t).1, hcol]; omega
  | ⟨1, _⟩ => show win0_2.index t 1 * 16 + 1 * r.val = r.val; rw [(idx_loraA t).2]; omega

theorem loraBBlk_apply (c : Dev nD) (t : Fin cfg0.N) (r : Fin 16) (q : Fin 4096) :
    loraBBlk m c t (ix2 r q) = loraBArr m c (ix2 r q) := by
  unfold loraBBlk iblk
  rw [View.read_apply]
  show loraBArr m c _ = loraBArr m c _
  refine congrArg (loraBArr m c) (funext fun a => Fin.ext ?_)
  match a with
  | ⟨0, _⟩ => show win0_3.index t 0 * 16 + 1 * r.val = r.val; rw [(idx_loraB t).1]; omega
  | ⟨1, _⟩ => show win0_3.index t 1 * 4096 + 1 * q.val = q.val; rw [(idx_loraB t).2]; omega

theorem biasBlk_apply (c : Dev nD) (t : Fin cfg0.N) (u : Fin 1) (q : Fin 4096) :
    biasBlk m c t (ix2 u q) = biasArr m c (ix2 u q) := by
  unfold biasBlk iblk
  rw [View.read_apply]
  show biasArr m c _ = biasArr m c _
  refine congrArg (biasArr m c) (funext fun a => Fin.ext ?_)
  match a with
  | ⟨0, _⟩ => show win0_4.index t 0 * 1 + 1 * u.val = u.val; rw [(idx_bias t).1]; omega
  | ⟨1, _⟩ => show win0_4.index t 1 * 4096 + 1 * q.val = q.val; rw [(idx_bias t).2]; omega

end Cert.KernelIdeal.Rosa

end
-- ==== Proof.Invariant.lean ====
/-
  What the two carried buffers hold after each grid point, in closed form.

  Point `n` is row block `n / 8` and K-block `n % 8`.  After it the low-rank accumulator at `(p, r)` is the sum of
  `x[row, d] · Aᵀ[d, r]` over the first `512·(n % 8) + 512` contracted coordinates `d`, `row = 1024·(n / 8) + p`, and —
  except at a row block's last K-block — the output block at `(p, q)` is the same prefix sum of `x[row, d] · Wᵀ[d, q]`.
  At a row block's last K-block the closing step has run: the output block is the whole sum plus the scaled
  low-rank product plus the bias.  By induction on the point; a row block's first point starts from zero.
-/
import proofs.«180927_j66700842106980_1_alg».proof.Proof.Gen.KernelIdeal.Frame
import proofs.«180927_j66700842106980_1_alg».proof.Proof.Algebra
import proofs.«180927_j66700842106980_1_alg».proof.Proof.Pieces
import proofs.«180927_j66700842106980_1_alg».proof.Proof.Payload
import proofs.«180927_j66700842106980_1_alg».proof.Proof.Blocks

set_option maxRecDepth 16384

noncomputable section

namespace Cert.KernelIdeal.Rosa

open Cert.KernelIdeal Cert.KernelIdeal.Gen Cert.Rosa
open Idealize.ShloMosaic Idealize.ShloMosaic.TcCoe Idealize.SL.Sem Idealize.ShloMosaic.ValueIdx
open Finset

variable (m : (ℓ : Loc nD τ sig) → Buf (Elt Ideal) ℓ)

/-- One product of the main contraction: activations row `row`, output column `q`, contracted coordinate `d`. -/
def mainTerm (c : Dev nD) (row : Fin 8192) (q : Fin 4096) (d : Fin 4096) : EReal :=
  actArr m c (ix2 row d) * wgtArr m c (ix2 d q)

/-- One product of the low-rank contraction. -/
def loraTerm (c : Dev nD) (row : Fin 8192) (r : Fin 16) (d : Fin 4096) : EReal :=
  actArr m c (ix2 row d) * loraAArr m c (ix2 d r)

/-- The array row that local row `p` of point `n`'s blocks is. -/
def rowOf (n : ℕ) (hn : n < cfg0.N) (p : Fin 1024) : Fin 8192 :=
  ⟨1024 * (n / 8) + p.val, by have hN : cfg0.N = 64 := N_0; have := p.isLt; omega⟩

theorem rowOf_val (n : ℕ) (hn : n < cfg0.N) (p : Fin 1024) : (rowOf n hn p).val = 1024 * (n / 8) + p.val := rfl

/-- Within a row block the row does not depend on the K-block. -/
theorem rowOf_pred (n : ℕ) (hn : n < cfg0.N) (hn' : n - 1 < cfg0.N) (h0 : ¬n % 8 = 0) (p : Fin 1024) :
    rowOf (n - 1) hn' p = rowOf n hn p := by
  apply Fin.ext
  show 1024 * ((n - 1) / 8) + p.val = 1024 * (n / 8) + p.val
  omega

/-! ## One accumulation step -/

/-- The main step: from the prefix sum up to this K-block's start to the prefix sum up to its end. -/
theorem step_main (c : Dev nD) (t : Fin cfg0.N) (p : Fin 1024) (q : Fin 4096) (acc : Vec Ideal S1024x4096 .f32)
    (hacc : acc (ix2 p q) = ∑ d ∈ range (512 * (t.val % 8)), extZ (mainTerm m c (rowOf t.val t.isLt p) q) d) :
    k0_pay4 (actBlk m c t) (wgtBlk m c t) acc (ix2 p q)
      = ∑ d ∈ range (512 * (t.val % 8) + 512), extZ (mainTerm m c (rowOf t.val t.isLt p) q) d := by
  rw [accStep_apply, hacc, sum_range_block]
  refine congrArg (_ + ·) (Finset.sum_congr rfl fun j _ => ?_)
  have hj := j.isLt
  have hlt : 512 * (t.val % 8) + j.val < 4096 := by omega
  rw [extZ_of_lt _ _ hlt]
  unfold mainTerm
  rw [actBlk_apply m c t p j (rowOf t.val t.isLt p) ⟨_, hlt⟩ rfl rfl, wgtBlk_apply m c t j q ⟨_, hlt⟩ rfl]

/-- The low-rank step. -/
theorem step_lora (c : Dev nD) (t : Fin cfg0.N) (p : Fin 1024) (r : Fin 16) (acc : Vec Ideal S1024x16 .f32)
    (hacc : acc (ix2 p r) = ∑ d ∈ range (512 * (t.val % 8)), extZ (loraTerm m c (rowOf t.val t.isLt p) r) d) :
    k0_pay5 (actBlk m c t) (loraABlk m c t) acc (ix2 p r)
      = ∑ d ∈ range (512 * (t.val % 8) + 512), extZ (loraTerm m c (rowOf t.val t.isLt p) r) d := by
  rw [scrStep_apply, hacc, sum_range_block]
  refine congrArg (_ + ·) (Finset.sum_congr rfl fun j _ => ?_)
  have hj := j.isLt
  have hlt : 512 * (t.val % 8) + j.val < 4096 := by omega
  rw [extZ_of_lt _ _ hlt]
  unfold loraTerm
  rw [actBlk_apply m c t p j (rowOf t.val t.isLt p) ⟨_, hlt⟩ rfl rfl, loraABlk_apply m c t j r ⟨_, hlt⟩ rfl]

/-! ## The invariant -/

/-- After point `n`: the low-rank accumulator is its prefix sum; off a row block's last K-block so is the output block. -/
def Inv (c : Dev nD) (n : ℕ) (hn : n < cfg0.N) : Prop :=
  (∀ (p : Fin 1024) (r : Fin 16), (outsAt0 m c n hn).2 (ix2 p r)
      = ∑ d ∈ range (512 * (n % 8) + 512), extZ (loraTerm m c (rowOf n hn p) r) d)
  ∧ (¬n % 8 = 7 → ∀ (p : Fin 1024) (q : Fin 4096), (outsAt0 m c n hn).1 (ix2 p q)
      = ∑ d ∈ range (512 * (n % 8) + 512), extZ (mainTerm m c (rowOf n hn p) q) d)

/-- At a row block's first K-block both buffers are reset, so the step starts from the empty prefix sum. -/
theorem inv_first (c : Dev nD) (t : Fin cfg0.N) (h0 : t.val % 8 = 0) : Inv m c t.val t.isLt := by
  have h1 : ¬t.val % 8 = 7 := by omega
  have hc0 : cond0_0 (grid0.coords t) := (hcond0_0 t).mpr h0
  have hc1 : ¬cond0_1 (grid0.coords t) := fun h => h1 ((hcond0_1 t).mp h)
  refine ⟨fun p r => ?_, fun _ p q => ?_⟩
  · rw [outsAt0_A m c t h0 h1]; dsimp only
    refine (congrFun (scr_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1) (ix2 p r)).trans ?_
    refine step_lora m c t p r _ ?_
    rw [h0, zeroScr_apply]; simp
  · rw [outsAt0_A m c t h0 h1]; dsimp only
    refine (congrFun (out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1) (ix2 p q)).trans ?_
    refine step_main m c t p q _ ?_
    rw [h0, zeroOut_apply]; simp

/-- The prefix lengths line up: the end of K-block `k - 1` is the start of K-block `k`. -/
theorem len_pred (n : ℕ) (h0 : ¬n % 8 = 0) : 512 * ((n - 1) % 8) + 512 = 512 * (n % 8) := by omega

/-- At a middle K-block both buffers take one step from what the point before left. -/
theorem inv_mid (c : Dev nD) (t : Fin cfg0.N) (h0 : ¬t.val % 8 = 0) (h1 : ¬t.val % 8 = 7)
    (ih : Inv m c (t.val - 1) (Nat.lt_of_le_of_lt (Nat.sub_le _ _) t.isLt)) : Inv m c t.val t.isLt := by
  have hc0 : ¬cond0_0 (grid0.coords t) := fun h => h0 ((hcond0_0 t).mp h)
  have hc1 : ¬cond0_1 (grid0.coords t) := fun h => h1 ((hcond0_1 t).mp h)
  have hp7 : ¬(t.val - 1) % 8 = 7 := by omega
  refine ⟨fun p r => ?_, fun _ p q => ?_⟩
  · rw [outsAt0_B m c t h0 h1]; dsimp only
    refine (congrFun (scr_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1 _ _) (ix2 p r)).trans ?_
    refine step_lora m c t p r _ ?_
    rw [ih.1 p r, len_pred _ h0, rowOf_pred _ t.isLt _ h0]
  · rw [outsAt0_B m c t h0 h1]; dsimp only
    refine (congrFun (out_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1 _ _) (ix2 p q)).trans ?_
    refine step_main m c t p q _ ?_
    rw [ih.2 hp7 p q, len_pred _ h0, rowOf_pred _ t.isLt _ h0]

/-- At a row block's last K-block the low-rank accumulator takes its last step (the output block is closed: below). -/
theorem inv_last (c : Dev nD) (t : Fin cfg0.N) (h0 : ¬t.val % 8 = 0) (h1 : t.val % 8 = 7)
    (ih : Inv m c (t.val - 1) (Nat.lt_of_le_of_lt (Nat.sub_le _ _) t.isLt)) : Inv m c t.val t.isLt := by
  have hc0 : ¬cond0_0 (grid0.coords t) := fun h => h0 ((hcond0_0 t).mp h)
  have hc1 : cond0_1 (grid0.coords t) := (hcond0_1 t).mpr h1
  refine ⟨fun p r => ?_, fun h => absurd h1 h⟩
  rw [outsAt0_C m c t h0 h1]; dsimp only
  refine (congrFun (scr_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1 _ _) (ix2 p r)).trans ?_
  refine step_lora m c t p r _ ?_
  rw [ih.1 p r, len_pred _ h0, rowOf_pred _ t.isLt _ h0]

/-- The invariant holds after every point. -/
theorem inv_all (c : Dev nD) : ∀ (n : ℕ) (hn : n < cfg0.N), Inv m c n hn := by
  intro n
  induction n with
  | zero => intro hn; exact inv_first m c ⟨0, hn⟩ rfl
  | succ n ih =>
    intro hn
    by_cases h0 : (n + 1) % 8 = 0
    · exact inv_first m c ⟨n + 1, hn⟩ h0
    · by_cases h1 : (n + 1) % 8 = 7
      · exact inv_last m c ⟨n + 1, hn⟩ h0 h1 (ih _)
      · exact inv_mid m c ⟨n + 1, hn⟩ h0 h1 (ih _)

/-! ## The closed output block -/

/-- The literal two the low-rank product is scaled by. -/
abbrev two : EReal := Ideal.ofBits .f32 0x40000000#32

/-- After a row block's last K-block the output block at `(p, q)` is the whole main sum plus (the low-rank product
    scaled by two, plus the bias). -/
theorem out_closed (c : Dev nD) (t : Fin cfg0.N) (h1 : t.val % 8 = 7) (p : Fin 1024) (q : Fin 4096) :
    (outsAt0 m c t.val t.isLt).1 (ix2 p q)
      = (∑ d ∈ range 4096, extZ (mainTerm m c (rowOf t.val t.isLt p) q) d)
        + ((∑ r : Fin 16, (∑ d ∈ range 4096, extZ (loraTerm m c (rowOf t.val t.isLt p) r) d) * loraBArr m c (ix2 r q)) * two
            + biasArr m c (ix2 (0 : Fin 1) q)) := by
  have h0 : ¬t.val % 8 = 0 := by omega
  have hc0 : ¬cond0_0 (grid0.coords t) := fun h => h0 ((hcond0_0 t).mp h)
  have hc1 : cond0_1 (grid0.coords t) := (hcond0_1 t).mpr h1
  have ih := inv_all m c (t.val - 1) (Nat.lt_of_le_of_lt (Nat.sub_le _ _) t.isLt)
  have hp7 : ¬(t.val - 1) % 8 = 7 := by omega
  have hlen : 512 * (t.val % 8) + 512 = 4096 := by omega
  rw [outsAt0_C m c t h0 h1]; dsimp only
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (actBlk m c t) (wgtBlk m c t) (loraABlk m c t) (loraBBlk m c t) (biasBlk m c t) hc0 hc1 _ _) (ix2 p q)).trans ?_
  rw [finish_apply]
  have hmain := step_main m c t p q (outsAt0 m c (t.val - 1) (Nat.lt_of_le_of_lt (Nat.sub_le _ _) t.isLt)).1
    (by rw [ih.2 hp7 p q, len_pred _ h0, rowOf_pred _ t.isLt _ h0])
  have hlora : ∀ r : Fin 16, k0_pay5 (actBlk m c t) (loraABlk m c t) (outsAt0 m c (t.val - 1) (Nat.lt_of_le_of_lt (Nat.sub_le _ _) t.isLt)).2 (ix2 p r)
      = ∑ d ∈ range 4096, extZ (loraTerm m c (rowOf t.val t.isLt p) r) d := fun r => by
    exact (step_lora m c t p r _ (by rw [ih.1 p r, len_pred _ h0, rowOf_pred _ t.isLt _ h0])).trans (by rw [hlen])
  rw [hlen] at hmain
  rw [hmain, biasBlk_apply m c t 0 q]
  refine congrArg (_ + ·) (congrArg (· + _) (congrArg (· * two) (Finset.sum_congr rfl fun r _ => ?_)))
  rw [hlora r, loraBBlk_apply m c t r q]

end Cert.KernelIdeal.Rosa

end
-- ==== Proof.Final.lean ====
/-
  The kernel's result array after the run.

  A row block is written back once, after its last K-block, so the `[8192, 4096]` output array ends holding, at
  `(row, q)`, the whole main sum plus (the low-rank product scaled by two, plus the bias).  Row `row` lies in row
  block `row / 1024`, whose last K-block is grid point `8·(row / 1024) + 7`: those eight points' blocks cover the array.
  The host line after the region reshapes it to `[4, 2048, 4096]`: entry `(b, s, o)` is row `2048·b + s`.
-/
import proofs.«180927_j66700842106980_1_alg».proof.Proof.Invariant
import Idealize.ShloMosaic.Lib.Pipeline.Value
import Idealize.ShloMosaic.Lib.StableHlo.Run
import Idealize.ShloMosaic.Lib.Tactic

set_option maxRecDepth 16384

noncomputable section

namespace Cert.KernelIdeal.Rosa

open Cert.KernelIdeal Cert.KernelIdeal.Gen Cert.Rosa
open Idealize.ShloMosaic Idealize.ShloMosaic.TcCoe Idealize.ShloMosaic.Tactic Idealize.SL.Sem Idealize.ShloMosaic.ValueIdx
open Idealize.ShloMosaic.Pipeline (Dat)
open Finset

variable (m : (ℓ : Loc nD τ sig) → Buf (Elt Ideal) ℓ) (ρ : Dev nD → PrngReg)

/-- The output array's entry at `(row, q)`. -/
def outAt (c : Dev nD) (row : Fin 8192) (q : Fin 4096) : EReal :=
  (∑ d ∈ range 4096, extZ (mainTerm m c row q) d)
    + ((∑ r : Fin 16, (∑ d ∈ range 4096, extZ (loraTerm m c row r) d) * loraBArr m c (ix2 r q)) * two
        + biasArr m c (ix2 (0 : Fin 1) q))

/-- The output array as one function of its index. -/
def outArr (c : Dev nD) : Vec Ideal S8192x4096 .f32 :=
  fun i => outAt m c ⟨(i 0).val, idx2_lt0 i⟩ ⟨(i 1).val, idx2_lt1 i⟩

theorem outArr_apply (c : Dev nD) (row : Fin 8192) (q : Fin 4096) : outArr m c (ix2 row q) = outAt m c row q := rfl

/-- What a flushing point writes back is its block of that function. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  show (cfg0.win 5).cut (grid0.coords t) ((dats m 0 c).after 5 t) = _
  rw [after0_5]
  refine funext fun (y : S1024x4096.Idx) => ?_
  show (outsAt0 m c t.val t.isLt).1 y = outArr m c (((cfg0.win 5).blk t).view.emb y)
  obtain ⟨p, q, rfl⟩ : ∃ (p : Fin 1024) (q : Fin 4096), y = ix2 p q := ⟨y 0, y 1, eq_ix2 y⟩
  have e : ((cfg0.win 5).blk t).view.emb (ix2 p q) = ix2 (rowOf t.val t.isLt p) q := funext fun a => Fin.ext (by
    match a with
    | ⟨0, _⟩ => show win0_5.index t 0 * 1024 + 1 * p.val = 1024 * (t.val / 8) + p.val; rw [(idx_out t).1]; omega
    | ⟨1, _⟩ => show win0_5.index t 1 * 4096 + 1 * q.val = q.val; rw [(idx_out t).2]; omega)
  rw [e, outArr_apply, out_closed m c t h7 p q]
  rfl

/-- Every entry of the output array is in the block of its row block's last K-block. -/
theorem covered (c : Dev nD) (i : S8192x4096.Idx) :
    ∃ t : Fin cfg0.N, (cfg0.win 5).flush t = true ∧ i ∈ ((cfg0.win 5).blk t).view.set := by
  have hN : cfg0.N = 64 := N_0
  have h0 : (i 0).val < 8192 := idx2_lt0 i
  have h1 : (i 1).val < 4096 := idx2_lt1 i
  let t : Fin cfg0.N := ⟨8 * ((i 0).val / 1024) + 7, by omega⟩
  have ht : t.val = 8 * ((i 0).val / 1024) + 7 := rfl
  refine ⟨t, (flush0_5 t).mpr (by rw [ht]; omega), ?_⟩
  show i ∈ ((View.whole main_v12).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(idx_out t).1, ht]; omega
  | ⟨1, _⟩ =>
    show win0_5.index t 1 * 4096 ≤ (i 1).val ∧ (i 1).val < win0_5.index t 1 * 4096 + 4096
    rw [(idx_out t).2]; omega

/-- So the output array ends holding that function. -/
theorem final_out (c : Dev nD) : (dats m 0 c).arrAt 5 cfg0.N = outArr m c :=
  (dats m 0 c).arrAt_eq_of_cover 5 (outArr m c) (flushed_eq m c) (covered c)

/-- The program's result: the output array reshaped to `[4, 2048, 4096]`. -/
def result (c : Dev nD) : Buf (Elt Ideal) ((c : Thread nD τ).loc main_v13) :=
  shapeCast S4x2048x4096 (outArr m c) shapeCasts_S8192x4096_S4x2048x4096

/-- The host line after the region leaves the result buffer at the reshaped output array. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = outArr m c :=
    (Pipeline.withArrays_arr spec0 launch0.win.arr_inj c _ _ 5).trans (final_out m c)
  rw [hw]
  rfl

/-- The run, read: the result buffer at the reshaped output array, every argument array unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Rosa

end
-- ==== Proof.Bridge.lean ====
/-
  The kernel's result at an index, written the reference's way.

  Entry `(b, s, o)` of the result is row `2048·b + s`, column `o` of the output array.  There the prefix sums are the
  whole `Fin 4096`-indexed sums; the staged arrays read back to the argument arrays (the activations reshaped, the
  effective weight `W + delta·mask` and the two low-rank factors transposed, the bias a row); and with the
  activations, the frozen weight and the delta real-valued, distributing `x·(W + delta·mask)` and regrouping gives
  `((Σ x·W + bias) + 2·lowrank) + Σ x·(delta·mask)`.
-/
import proofs.«180927_j66700842106980_1_alg».proof.Proof.Final

set_option maxRecDepth 16384

noncomputable section

namespace Cert.KernelIdeal.Rosa

open Cert.KernelIdeal Cert.KernelIdeal.Gen Cert.Rosa
open Idealize.ShloMosaic Idealize.ShloMosaic.TcCoe Idealize.SL.Sem Idealize.ShloMosaic.ValueIdx
open Finset

variable (m : (ℓ : Loc nD τ sig) → Buf (Elt Ideal) ℓ)

/-- The reshape reads `(b, s, o)` at row `2048·b + s`. -/
theorem result_eq_outAt (c : Dev nD) (b : Fin 4) (s : Fin 2048) (o : Fin 4096) (row : Fin 8192) (hrow : row.val = 2048 * b.val + s.val) :
    result m c (ix3 b s o) = outAt m c row o := by
  unfold result
  refine (shapeCast_apply (outArr m c) shapeCasts_S8192x4096_S4x2048x4096 (ix3 b s o) (ix2 row o) ?_).trans (outArr_apply m c row o)
  rw [Shape.rowMajor_val_three, Shape.rowMajor_val_two]
  show row.val * 4096 + o.val = (b.val * 2048 + s.val) * 4096 + o.val
  rw [hrow]; ring

/-- The mask entry converted to a float is a real number, so the masked delta is real where the delta is. -/
theorem masked_real (dlt : EReal) (hd : ∃ a : ℝ, dlt = a) (bit : BitVec 1) :
    ∃ a : ℝ, dlt * FloatOps.uitofp (F := Ideal) .f32 bit = (a : EReal) := by
  obtain ⟨a, rfl⟩ := hd
  exact ⟨a * (bit.toNat : ℝ), (EReal.coe_mul _ _).symm⟩

/-- The result at `(b, s, o)`, in the reference's grouping. -/
theorem result_apply (c : Dev nD) (hx : ∀ i, ∃ a : ℝ, argX m c i = (a : EReal)) (hw : ∀ i, ∃ a : ℝ, argW m c i = (a : EReal))
    (hd : ∀ i, ∃ a : ℝ, argDelta m c i = (a : EReal)) (b : Fin 4) (s : Fin 2048) (o : Fin 4096) :
    result m c (ix3 b s o)
      = ((∑ d : Fin 4096, argX m c (ix3 b s d) * argW m c (ix2 o d) + argBias m c (ix1 o))
          + (∑ r : Fin 16, (∑ d : Fin 4096, argX m c (ix3 b s d) * argA m c (ix2 r d)) * argB m c (ix2 o r)) * Ideal.ofBits .f32 0x40000000#32)
        + ∑ d : Fin 4096, argX m c (ix3 b s d) * (argDelta m c (ix2 o d) * FloatOps.uitofp (F := Ideal) .f32 (argMask m c (ix2 o d))) := by
  have hb := b.isLt
  have hs := s.isLt
  let row : Fin 8192 := ⟨2048 * b.val + s.val, by omega⟩
  rw [result_eq_outAt m c b s o row rfl]
  unfold outAt
  rw [sum_range_extZ]
  have hmain : ∀ d : Fin 4096, mainTerm m c row o d
      = argX m c (ix3 b s d) * (argW m c (ix2 o d) + argDelta m c (ix2 o d) * FloatOps.uitofp (F := Ideal) .f32 (argMask m c (ix2 o d))) := fun d => by
    unfold mainTerm
    rw [actArr_apply m c b s d row rfl, wgtArr_apply]
  have hlora : ∀ r : Fin 16, (∑ d ∈ range 4096, extZ (loraTerm m c row r) d) * loraBArr m c (ix2 r o)
      = (∑ d : Fin 4096, argX m c (ix3 b s d) * argA m c (ix2 r d)) * argB m c (ix2 o r) := fun r => by
    rw [sum_range_extZ, loraBArr_apply]
    refine congrArg (· * _) (Finset.sum_congr rfl fun d _ => ?_)
    unfold loraTerm
    rw [actArr_apply m c b s d row rfl, loraAArr_apply]
  rw [Finset.sum_congr rfl fun d _ => hmain d, Finset.sum_congr rfl fun r _ => hlora r, biasArr_apply]
  exact fold_law (fun d => argX m c (ix3 b s d)) (fun d => argW m c (ix2 o d))
    (fun d => argDelta m c (ix2 o d) * FloatOps.uitofp (F := Ideal) .f32 (argMask m c (ix2 o d)))
    (fun d => hx _) (fun d => hw _) (fun d => masked_real _ (hd _) _) _ _

end Cert.KernelIdeal.Rosa

end
-- ==== Proof.RefRead.lean ====
/-
  The reference's result read at an index, at the ideal instance: the frozen linear map plus the bias, plus twice
  the low-rank product, plus the linear map of the masked delta.
-/
import proofs.«180927_j66700842106980_1_alg».proof.Proof.Gen.ReferenceIdeal.Run
import proofs.«180927_j66700842106980_1_alg».proof.Proof.Gen.ReferenceIdeal.Read
import Idealize.ShloMosaic.Lib.ValueIdx

noncomputable section

namespace Cert.ReferenceIdeal.RefRead

open Cert.ReferenceIdeal Cert.ReferenceIdeal.Gen Idealize.ShloMosaic Idealize.ShloMosaic.ValueIdx

theorem lidx_v0 (b : Fin 4) (s : Fin 2048) (o : Fin 4096) (k : Fin 4096) :
    Read.lidx_main_v0 (ix3 b s o) k = ix3 b s k := by
  funext a; match a with | ⟨0, _⟩ => rfl | ⟨1, _⟩ => rfl | ⟨2, _⟩ => rfl

theorem ridx_v0 (b : Fin 4) (s : Fin 2048) (o : Fin 4096) (k : Fin 4096) :
    Read.ridx_main_v0 (ix3 b s o) k = ix2 o k := by
  funext a; match a with | ⟨0, _⟩ => rfl | ⟨1, _⟩ => rfl

theorem idx_v1_v2 (b : Fin 4) (s : Fin 2048) (o : Fin 4096) :
    Read.idx_main_v1 (Read.idx_main_v2 (ix3 b s o)) = ix1 o := by
  funext a; match a with | ⟨0, _⟩ => rfl

theorem lidx_v5 (b : Fin 4) (s : Fin 2048) (o : Fin 4096) (r : Fin 16) :
    Read.lidx_main_v5 (ix3 b s o) r = ix3 b s r := by
  funext a; match a with | ⟨0, _⟩ => rfl | ⟨1, _⟩ => rfl | ⟨2, _⟩ => rfl

theorem ridx_v5 (b : Fin 4) (s : Fin 2048) (o : Fin 4096) (r : Fin 16) :
    Read.ridx_main_v5 (ix3 b s o) r = ix2 o r := by
  funext a; match a with | ⟨0, _⟩ => rfl | ⟨1, _⟩ => rfl

theorem lidx_v4 (b : Fin 4) (s : Fin 2048) (r : Fin 16) (d : Fin 4096) :
    Read.lidx_main_v4 (ix3 b s r) d = ix3 b s d := by
  funext a; match a with | ⟨0, _⟩ => rfl | ⟨1, _⟩ => rfl | ⟨2, _⟩ => rfl

theorem ridx_v4 (b : Fin 4) (s : Fin 2048) (r : Fin 16) (d : Fin 4096) :
    Read.ridx_main_v4 (ix3 b s r) d = ix2 r d := by
  funext a; match a with | ⟨0, _⟩ => rfl | ⟨1, _⟩ => rfl

theorem lidx_v11 (b : Fin 4) (s : Fin 2048) (o : Fin 4096) (d : Fin 4096) :
    Read.lidx_main_v11 (ix3 b s o) d = ix3 b s d := by
  funext a; match a with | ⟨0, _⟩ => rfl | ⟨1, _⟩ => rfl | ⟨2, _⟩ => rfl

theorem ridx_v11 (b : Fin 4) (s : Fin 2048) (o : Fin 4096) (d : Fin 4096) :
    Read.ridx_main_v11 (ix3 b s o) d = ix2 o d := by
  funext a; match a with | ⟨0, _⟩ => rfl | ⟨1, _⟩ => rfl

/-- The reference's result at `(b, s, o)`. -/
theorem result_apply (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) (x5 : (⟨S4096x4096, .f32⟩ : BufTy).Contents (Elt Ideal))
    (x6 : (⟨S4096x4096, .i1⟩ : BufTy).Contents (Elt Ideal)) (b : Fin 4) (s : Fin 2048) (o : Fin 4096) :
    Read.val_main_v12 (F := Ideal) x0 x1 x2 x3 x4 x5 x6 (ix3 b s o)
      = ((∑ d : Fin 4096, x0 (ix3 b s d) * x1 (ix2 o d) + x2 (ix1 o))
          + (∑ r : Fin 16, (∑ d : Fin 4096, x0 (ix3 b s d) * x3 (ix2 r d)) * x4 (ix2 o r)) * Ideal.ofBits .f32 0x40000000#32)
        + ∑ d : Fin 4096, x0 (ix3 b s d) * (x5 (ix2 o d) * FloatOps.uitofp (F := Ideal) .f32 (x6 (ix2 o d))) := by
  rw [Read.val_main_v12_apply, Read.val_main_v8_apply, Read.val_main_v3_apply, Read.val_main_v0_apply,
    Read.val_main_v2_apply, Read.val_main_v1_apply, Read.val_main_v7_apply, Read.val_main_v5_apply,
    Read.val_main_v6_apply, Read.val_main_cst_apply, Read.val_main_v11_apply]
  simp only [Read.val_main_v4_apply, Read.val_main_v10_apply, Read.val_main_v9_apply,
    lidx_v0, ridx_v0, idx_v1_v2, lidx_v5, ridx_v5, lidx_v4, ridx_v4, lidx_v11, ridx_v11,
    Ideal.addf_def, Ideal.mulf_def, Ideal.ofBits_def]

end Cert.ReferenceIdeal.RefRead

end
-- ==== Proof.Finite.lean ====
/-
  What the precondition gives: every entry of the activations, of the frozen weight and of the delta is a real
  number (an extended real that is neither infinity), because its absolute value is below `+inf`.
-/
import proofs.«180927_j66700842106980_1_alg».proof.Pre_finite_inputs
import proofs.«180927_j66700842106980_1_alg».proof.Proof.Gen.Pre_finite_inputs
import Idealize.ShloMosaic.PureOps.Ideal
import Idealize.ShloMosaic.Lib.ReduceAll
import Idealize.ShloMosaic.Lib.ValueIdx

noncomputable section

namespace Cert.Rosa

open Idealize.ShloMosaic Cert.Pre_finite_inputs

/-- The bit pattern `0x7F800000` is `+inf`. -/
theorem ofBits_inf : Ideal.ofBits .f32 0x7F800000#32 = (⊤ : EReal) := by
  simp [Ideal.ofBits, Ideal.ieee]

/-- An extended real whose absolute value compares below `+inf` is a real number. -/
theorem real_of_abs_lt (x : EReal)
    (h : Ideal.cmp .olt (max x (-x)) (Ideal.ofBits .f32 0x7F800000#32) = 1#1) : ∃ a : ℝ, x = (a : EReal) := by
  rw [ofBits_inf] at h
  induction x using EReal.rec with
  | bot => simp [Ideal.cmp] at h
  | coe a => exact ⟨a, rfl⟩
  | top => simp [Ideal.cmp] at h

/-- `jnp.all(|x| < +inf)` being one makes every entry of `x` a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
      init hr hu ValueIdx.ix0 = 1#1) (i : s.Idx) : ∃ a : ℝ, x i = (a : EReal) := by
  haveI : Subsingleton S_.Idx := ⟨fun a b => funext fun d => d.elim0⟩
  have h := Host.reduce_andi_all _ init hr hu ValueIdx.ix0 e i
  refine real_of_abs_lt (x i) ?_
  rw [← h]
  rfl

/-- From the printed precondition being all ones: the activations, the frozen weight and the delta are real-valued. -/
theorem real_of_pre (x0 : FVec Ideal S4x2048x4096 .f32) (x1 : FVec Ideal S4096x4096 .f32) (x2 : FVec Ideal S4096 .f32)
    (x3 : FVec Ideal S16x4096 .f32) (x4 : FVec Ideal S4096x16 .f32) (x5 : FVec Ideal S4096x4096 .f32) (x6 : IVec S4096x4096 1)
    (h : Cert.Pre_finite_inputs.fn (F := Ideal) x0 x1 x2 x3 x4 x5 x6 = fun _ => 1#1) :
    (∀ i, ∃ a : ℝ, x0 i = (a : EReal)) ∧ (∀ i, ∃ a : ℝ, x1 i = (a : EReal)) ∧ (∀ i, ∃ a : ℝ, x5 i = (a : EReal)) := by
  have h0 := congrFun h ValueIdx.ix0
  unfold Cert.Pre_finite_inputs.fn Cert.Pre_finite_inputs.fn_part1 at h0
  dsimp only at h0
  obtain ⟨h23, h27⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all x0 _ _ _ _ h3, real_of_all x1 _ _ _ _ h7, real_of_all x5 _ _ _ _ h27⟩

end Cert.Rosa

end
-- ==== Proof.lean ====
/-
  A LoRA-plus-sparse-delta linear layer: `x·Wᵀ + b + 2·(x·Aᵀ)·Bᵀ + x·(delta ⊙ mask)ᵀ` over `x : [4, 2048, 4096]`.

  The kernel folds the masked delta into the weight on the host (`W + delta ⊙ mask`, transposed), and runs one
  pipelined product over an `8 × 8` grid: row blocks of 1024 rows, the contracted axis in eight blocks of 512.  Along
  the contracted axis it accumulates the main product into the output block and `x·Aᵀ` into a rank-16 scratch buffer;
  at the last block it adds `2·(scratch·Bᵀ) + b`.  The reference computes the four terms separately and adds them.

  Over the extended reals the two agree when the activations, the frozen weight and the delta are real numbers
  (the precondition makes every float input finite): sums regroup freely, and `x·(W + delta·mask)` distributes.
  The frames are the generated ones; the idealization rewrote nothing.
-/
import proofs.«180927_j66700842106980_1_alg».proof.Defs
import proofs.«180927_j66700842106980_1_alg».proof.Proof.Gen.Kernel
import proofs.«180927_j66700842106980_1_alg».proof.Proof.Gen.Kernel.Frame
import proofs.«180927_j66700842106980_1_alg».proof.Proof.Gen.KernelIdeal
import proofs.«180927_j66700842106980_1_alg».proof.Proof.Gen.KernelIdeal.Frame
import proofs.«180927_j66700842106980_1_alg».proof.Proof.Gen.ReferenceIdeal
import proofs.«180927_j66700842106980_1_alg».proof.Proof.Gen.ReferenceIdeal.Run
import proofs.«180927_j66700842106980_1_alg».proof.Proof.Gen.ReferenceIdeal.Read
import proofs.«180927_j66700842106980_1_alg».proof.Proof.Gen.Pre_finite_inputs
import proofs.«180927_j66700842106980_1_alg».proof.Proof.Bridge
import proofs.«180927_j66700842106980_1_alg».proof.Proof.RefRead
import proofs.«180927_j66700842106980_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: entry `(b, s, o)` of the kernel's is the reference's sum regrouped. -/
theorem algebraic : Cert.algebraic_KernelIdeal_ReferenceIdeal := by
  intro m ρ m' ρ' hpre hagree
  refine ⟨fun c => Cert.KernelIdeal.Rosa.result m c, Cert.KernelIdeal.Rosa.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hd⟩ := Cert.Rosa.real_of_pre _ _ _ _ _ _ _ (hpre c)
  rw [Cert.ReferenceIdeal.Read.val_main_v12_eq, (hagree c).1, (hagree c).2.1, (hagree c).2.2.1, (hagree c).2.2.2.1,
    (hagree c).2.2.2.2.1, (hagree c).2.2.2.2.2.1, (hagree c).2.2.2.2.2.2]
  funext i
  obtain ⟨b, s, o, rfl⟩ : ∃ (b : Fin 4) (s : Fin 2048) (o : Fin 4096), i = ix3 b s o := ⟨i 0, i 1, i 2, eq_ix3 i⟩
  rw [Cert.ReferenceIdeal.RefRead.result_apply]
  exact (Cert.KernelIdeal.Rosa.result_apply m c hx hw hd b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
